-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S86x32 : Shape := ⟨2, ![86, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S86x32 : S_.BroadcastsInDim S86x32 (![] : Fin 0 → Fin S86x32.rank)
  reducesTo_S86x32_S_d0_1 : S86x32.ReducesTo [0, 1] S_

variable [Facts]

def fn {F : FTy → Type} [FloatOps F] (main_arg0 : FVec F S4x2048x4096 .f32) (main_arg1 : FVec F S11008x4096 .f32) (main_arg2 : FVec F S86x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S86x32 .f32 := Host.absf main_arg2
  let main_cst_2 : FVec F S_ .f32 := constant S_ .f32 0x7F800000#32
  let main_v10 : FVec F S86x32 .f32 := broadcastInDim S86x32 ![] bcast_S_S86x32 main_cst_2
  let main_v11 : IVec S86x32 1 := cmpf .olt main_v9 main_v10
  let main_c_3 : IVec S_ 1 := constantI S_ 1 1#1
  let main_v12 : IVec S_ 1 := (fun x v => Host.reduce IntOp.andi x v reducesTo_S86x32_S_d0_1 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S86x32 : Shape := ⟨2, ![86, 32]⟩
abbrev S8192x4096 : Shape := ⟨2, ![8192, 4096]⟩
abbrev S86x128x32 : Shape := ⟨3, ![86, 128, 32]⟩
abbrev S11008x32 : Shape := ⟨2, ![11008, 32]⟩
abbrev S8192x11008 : Shape := ⟨2, ![8192, 11008]⟩
abbrev S2048x4096 : Shape := ⟨2, ![2048, 4096]⟩
abbrev S128x4096 : Shape := ⟨2, ![128, 4096]⟩
abbrev S128x32 : Shape := ⟨2, ![128, 32]⟩
abbrev S2048x128 : Shape := ⟨2, ![2048, 128]⟩
abbrev S128x32x128 : Shape := ⟨3, ![128, 32, 128]⟩
abbrev S128x32x1 : Shape := ⟨3, ![128, 32, 1]⟩
abbrev S4096x128 : Shape := ⟨2, ![4096, 128]⟩
abbrev S4x2048x11008 : Shape := ⟨3, ![4, 2048, 11008]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S86x32, .f32⟩
  | .hbm, ⟨3, _⟩ => ⟨S8192x4096, .f32⟩
  | .hbm, ⟨4, _⟩ => ⟨S8192x4096, .bf16⟩
  | .hbm, ⟨5, _⟩ => ⟨S11008x4096, .bf16⟩
  | .hbm, ⟨6, _⟩ => ⟨S86x128x32, .f32⟩
  | .hbm, ⟨7, _⟩ => ⟨S11008x32, .f32⟩
  | .hbm, ⟨8, _⟩ => ⟨S8192x11008, .f32⟩
  | .hbm, ⟨9, _⟩ => ⟨S4x2048x11008, .f32⟩
  | .local _ .vmem, ⟨0, _⟩ => ⟨S2048x4096, .bf16⟩
  | .local _ .vmem, ⟨1, _⟩ => ⟨S2048x4096, .bf16⟩
  | .local _ .vmem, ⟨2, _⟩ => ⟨S128x4096, .bf16⟩
  | .local _ .vmem, ⟨3, _⟩ => ⟨S128x4096, .bf16⟩
  | .local _ .vmem, ⟨4, _⟩ => ⟨S128x32, .f32⟩
  | .local _ .vmem, ⟨5, _⟩ => ⟨S128x32, .f32⟩
  | .local _ .vmem, ⟨6, _⟩ => ⟨S2048x128, .f32⟩
  | .local _ .vmem, ⟨7, _⟩ => ⟨S2048x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  bitsLt_bf16_f32 : FTy.bits .bf16 < FTy.bits .f32
  bcast_S86x32_S86x128x32_0_2 : S86x32.BroadcastsInDim S86x128x32 (![0, 2] : Fin 2 → Fin S86x128x32.rank)
  shapeCasts_S86x128x32_S11008x32 : S86x128x32.ShapeCasts S11008x32
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S128x4096_S128x32x128 : S128x4096.ShapeCasts S128x32x128
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  transposes_S128x4096_p1_0_S4096x128 : S128x4096.Transposes [1, 0] S4096x128
  inb_S2048x128_S2048x128_0_0 : ∀ a, (![0, 0] : Fin 2 → Nat) a + S2048x128.size a ≤ S2048x128.size a
  h_S2048x128 : 0 < S2048x128.numel
  shapeCasts_S8192x11008_S4x2048x11008 : S8192x11008.ShapeCasts S4x2048x11008
  dot_S2048x4096_S4096x128_S2048x128_1_0_0_1_n_n_wf : DotDims.WF S2048x4096 S4096x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .bf16 = 32 ∨ (Rect.block (s := S11008x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S11008x32.size a
  hwx0_2 : ∀ i : grid0.Coords, EltTy.bits .f32 = 32 ∨ (Rect.block (s := S11008x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x11008.size a
  hwx0_3 : ∀ i : grid0.Coords, EltTy.bits .f32 = 32 ∨ (Rect.block (s := S8192x11008) S2048x128.size (cc0_transform_3 i) (hinb0_3 i)).WholeWords (EltTy.packing .f32)

variable [Facts₀]

def dot_S2048x4096_S4096x128_S2048x128_1_0_0_1_n_n : DotDims S2048x4096 S4096x128 S2048x128 where
  lhsContracting := [1]
  rhsContracting := [0]
  lhsNonContracting := [0]
  rhsNonContracting := [1]
  lhsBatch := []
  rhsBatch := []
  wf := dot_S2048x4096_S4096x128_S2048x128_1_0_0_1_n_n_wf

abbrev win0_0 : Pipeline.Window sig grid0 :=
  Pipeline.Window.ofSpec (Memref.whole main_v1) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S86x32 : Shape := ⟨2, ![86, 32]⟩
abbrev S86x128x32x128 : Shape := ⟨4, ![86, 128, 32, 128]⟩
abbrev S86x1x32x1 : Shape := ⟨4, ![86, 1, 32, 1]⟩
abbrev S4x2048x11008 : Shape := ⟨3, ![4, 2048, 11008]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S86x32, .f32⟩
  | .hbm, ⟨3, _⟩ => ⟨S86x128x32x128, .f32⟩
  | .hbm, ⟨4, _⟩ => ⟨S86x1x32x1, .f32⟩
  | .hbm, ⟨5, _⟩ => ⟨S86x128x32x128, .f32⟩
  | .hbm, ⟨6, _⟩ => ⟨S86x128x32x128, .f32⟩
  | .hbm, ⟨7, _⟩ => ⟨S11008x4096, .f32⟩
  | .hbm, ⟨8, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S11008x4096_S86x128x32x128 : S11008x4096.ShapeCasts S86x128x32x128
  bcast_S86x32_S86x1x32x1_0_2 : S86x32.BroadcastsInDim S86x1x32x1 (![0, 2] : Fin 2 → Fin S86x1x32x1.rank)
  bcast_S86x1x32x1_S86x128x32x128_0_1_2_3 : S86x1x32x1.BroadcastsInDim S86x128x32x128 (![0, 1, 2, 3] : Fin 4 → Fin S86x128x32x128.rank)
  shapeCasts_S86x128x32x128_S11008x4096 : S86x128x32x128.ShapeCasts S11008x4096
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The function both programs compute, index by index over the extended reals: a linear layer whose weight matrix is
  dequantized tile by tile. The weight [11008, 4096] is cut into tiles of 128 rows by 128 columns, 86 down and 32
  across, and every entry of tile (r, c) is multiplied by the one number `scale[r, c]`. The layer's output at batch
  `b`, position `t` and output feature `o` is the inner product, over the 4096 input features `k`, of `x[b, t, k]`
  with the dequantized weight entry `weight[o, k] * scale[o / 128, k / 128]`.
-/
import Idealize.ShloMosaic.PureOps.Ideal
import Idealize.ShloMosaic.Lib.ValueIdx

noncomputable section

open scoped BigOperators

namespace Cert.Spec

open Idealize.ShloMosaic Idealize.ShloMosaic.ValueIdx

/-- The tile row that weight row `o` lies in: 128 rows to a tile. -/
def tileRow (o : Fin 11008) : Fin 86 := ⟨o.val / 128, by have := o.isLt; omega⟩

/-- The tile column that input feature `k` lies in: 128 columns to a tile. -/
def tileCol (k : Fin 4096) : Fin 32 := ⟨k.val / 128, by have := k.isLt; omega⟩

/-- One entry of the dequantized weight: the stored entry times the scale of the tile it lies in. -/
def dequant (w : (⟨2, ![11008, 4096]⟩ : Shape).Idx → EReal) (s : (⟨2, ![86, 32]⟩ : Shape).Idx → EReal)
    (o : Fin 11008) (k : Fin 4096) : EReal :=
  w (ix2 o k) * s (ix2 (tileRow o) (tileCol k))

/-- The layer's output at coordinates (b, t, o): the inner product over the input features. -/
def linearAt (x : (⟨3, ![4, 2048, 4096]⟩ : Shape).Idx → EReal) (w : (⟨2, ![11008, 4096]⟩ : Shape).Idx → EReal)
    (s : (⟨2, ![86, 32]⟩ : Shape).Idx → EReal) (b : Fin 4) (t : Fin 2048) (o : Fin 11008) : EReal :=
  ∑ k : Fin 4096, x (ix3 b t k) * dequant w s o k

/-- The whole output array. -/
def linear (x : (⟨3, ![4, 2048, 4096]⟩ : Shape).Idx → EReal) (w : (⟨2, ![11008, 4096]⟩ : Shape).Idx → EReal)
    (s : (⟨2, ![86, 32]⟩ : Shape).Idx → EReal) : (⟨3, ![4, 2048, 11008]⟩ : Shape).Idx → EReal :=
  fun i => linearAt x w s (i 0) (i 1) (i 2)

end Cert.Spec

end
-- ==== Proof.RefValue.lean ====
/-
  The reference computes the specified layer. Its program reshapes the weight to [86, 128, 32, 128] (tile row, row in
  tile, tile column, column in tile), multiplies by the scale broadcast along the two in-tile axes, reshapes back to
  [11008, 4096] and contracts the input's feature axis with the weight's column axis. Read at an output index
  (b, t, o) and a feature `k`, the reshaped-back entry (o, k) sits at flat position `o * 4096 + k`, whose four
  coordinates are (o / 128, o % 128, k / 128, k % 128): the weight factor is `weight[o, k]` and the scale factor is
  `scale[o / 128, k / 128]`, the specification's dequantized entry.
-/
import proofs.«176522_j12489764897587_1_alg».proof.Proof.Gen.ReferenceIdeal.Read
import proofs.«176522_j12489764897587_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The input is read at (b, t, k). -/
theorem input_index (i : S4x2048x11008.Idx) (k : Fin 4096) : lidx_main_v5 i k = ix3 (i 0) (i 1) k :=
  funext fun a => by
    match a with
    | ⟨0, _⟩ => rfl
    | ⟨1, _⟩ => rfl
    | ⟨2, _⟩ => rfl

/-- Through the two reshapes the weight is read at (o, k): splitting flat position `o * 4096 + k` into the four tile
    coordinates and joining them again gives the position back. -/
theorem weight_index (i : S4x2048x11008.Idx) (k : Fin 4096) :
    idx_main_v0 (idx_main_v4 (ridx_main_v5 i k)) = ix2 (i 2) k :=
  funext fun a => Fin.ext (by
    have ho : (i 2).val < 11008 := (i 2).isLt
    have hk : k.val < 4096 := k.isLt
    match a with
    | ⟨0, _⟩ =>
      show ((((((i 2).val * 4096 + k.val) / 524288) * 128 + ((i 2).val * 4096 + k.val) / 4096 % 128) * 32
        + ((i 2).val * 4096 + k.val) / 128 % 32) * 128 + ((i 2).val * 4096 + k.val) % 128) / 4096 = (i 2).val
      omega
    | ⟨1, _⟩ =>
      show ((((((i 2).val * 4096 + k.val) / 524288) * 128 + ((i 2).val * 4096 + k.val) / 4096 % 128) * 32
        + ((i 2).val * 4096 + k.val) / 128 % 32) * 128 + ((i 2).val * 4096 + k.val) % 128) % 4096 = k.val
      omega)

/-- Through the reshape and the two broadcasts the scale is read at the tile of (o, k). -/
theorem scale_index (i : S4x2048x11008.Idx) (k : Fin 4096) :
    idx_main_v1 (idx_main_v2 (idx_main_v4 (ridx_main_v5 i k))) = ix2 (Cert.Spec.tileRow (i 2)) (Cert.Spec.tileCol k) :=
  funext fun a => Fin.ext (by
    have ho : (i 2).val < 11008 := (i 2).isLt
    have hk : k.val < 4096 := k.isLt
    match a with
    | ⟨0, _⟩ =>
      show ((i 2).val * 4096 + k.val) / 524288 = (i 2).val / 128
      omega
    | ⟨1, _⟩ =>
      show ((i 2).val * 4096 + k.val) / 128 % 32 = k.val / 128
      omega)

/-- The reference's result stage is the specified layer of its three arguments. -/
theorem result_eq (x0 : (⟨S4x2048x4096, .f32⟩ : BufTy).Contents (Elt Ideal)) (x1 : (⟨S11008x4096, .f32⟩ : BufTy).Contents (Elt Ideal))
    (x2 : (⟨S86x32, .f32⟩ : BufTy).Contents (Elt Ideal)) :
    val_main_v5 (F := Ideal) x0 x1 x2 = Cert.Spec.linear x0 x1 x2 := by
  funext i
  rw [val_main_v5_apply]
  unfold Cert.Spec.linear Cert.Spec.linearAt Cert.Spec.dequant
  refine Finset.sum_congr rfl fun k _ => ?_
  rw [val_main_v4_apply, val_main_v3_apply, val_main_v0_apply, val_main_v2_apply, val_main_v1_apply,
    input_index, weight_index, scale_index]
  rfl

end Cert.ReferenceIdeal.RefValue

end
-- ==== Proof.BlockValue.lean ====
/-
  What the kernel's body computes at one grid point, read at one entry. The body holds a block of 2048 input rows
  `xb` [2048, 4096], a block of 128 weight rows `wb` [128, 4096] and the matching 128 rows of the row-expanded scale
  `sb` [128, 32]. It views the weight block as [128, 32, 128] (row, tile column, column in tile), multiplies by the
  scale with a trailing unit axis broadcast along the in-tile columns, views the product as [128, 4096] again,
  transposes it and contracts it with the input block. Entry (p, q) of the result is therefore the sum over the 4096
  features `k` of `xb[p, k] * (wb[q, k] * sb[q, k / 128])`: feature `k` of a row sits at tile column `k / 128`,
  in-tile column `k % 128`. Changes of float format are the identity on the extended reals, and the product
  accumulates into zero.
-/
import proofs.«176522_j12489764897587_1_alg».proof.Proof.Gen.KernelIdeal.Skeleton
import proofs.«176522_j12489764897587_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The contraction's operand indices, coordinate by coordinate -/

/-- The left operand's row is the output's row. -/
theorem lhs_row (j : S2048x128.Idx) (q : dot_S2048x4096_S4096x128_S2048x128_1_0_0_1_n_n.contr.Idx) : (dot_S2048x4096_S4096x128_S2048x128_1_0_0_1_n_n.lhsIdx j q 0).val = (j 0).val := by
  unfold DotDims.lhsIdx
  rw [dif_neg (show ¬(0 : Fin S2048x4096.rank) ∈ dot_S2048x4096_S4096x128_S2048x128_1_0_0_1_n_n.lhsBatch by decide), dif_pos (show (0 : Fin S2048x4096.rank) ∈ dot_S2048x4096_S4096x128_S2048x128_1_0_0_1_n_n.lhsNonContracting by decide)]
  rfl
/-- The left operand's column is the contracted feature. -/
theorem lhs_col (j : S2048x128.Idx) (q : dot_S2048x4096_S4096x128_S2048x128_1_0_0_1_n_n.contr.Idx) : (dot_S2048x4096_S4096x128_S2048x128_1_0_0_1_n_n.lhsIdx j q 1).val = (q ⟨0, by decide⟩).val :=
  dot_S2048x4096_S4096x128_S2048x128_1_0_0_1_n_n.lhsIdx_val_of_single rfl j q
/-- The right operand's row is the contracted feature. -/
theorem rhs_row (j : S2048x128.Idx) (q : dot_S2048x4096_S4096x128_S2048x128_1_0_0_1_n_n.contr.Idx) : (dot_S2048x4096_S4096x128_S2048x128_1_0_0_1_n_n.rhsIdx j q 0).val = (q ⟨0, by decide⟩).val :=
  dot_S2048x4096_S4096x128_S2048x128_1_0_0_1_n_n.rhsIdx_val_of_single rfl j q
/-- The right operand's column is the output's column. -/
theorem rhs_col (j : S2048x128.Idx) (q : dot_S2048x4096_S4096x128_S2048x128_1_0_0_1_n_n.contr.Idx) : (dot_S2048x4096_S4096x128_S2048x128_1_0_0_1_n_n.rhsIdx j q 1).val = (j 1).val := by
  unfold DotDims.rhsIdx
  rw [dif_neg (show ¬(1 : Fin S4096x128.rank) ∈ dot_S2048x4096_S4096x128_S2048x128_1_0_0_1_n_n.rhsBatch by decide), dif_pos (show (1 : Fin S4096x128.rank) ∈ dot_S2048x4096_S4096x128_S2048x128_1_0_0_1_n_n.rhsNonContracting by decide)]
  rfl

/-! ## The dequantized weight block -/

/-- The in-tile column of feature `k`. -/
def inTile (k : Fin 4096) : Fin 128 := ⟨k.val % 128, Nat.mod_lt _ (by decide)⟩

/-- The weight block times the broadcast scale, viewed [128, 4096], at (q, k): the weight entry times the scale of
    tile column `k / 128` of row `q`. -/
theorem scaled_apply (x1 : FVec Ideal S128x4096 .bf16) (x2 : FVec Ideal S128x32 .f32) (q : Fin 128) (k : Fin 4096) :
    shapeCast S128x4096
        (mulf
          (shapeCast S128x32x128 (extf .f32 (shapeCast S128x4096 x1 shapeCasts_S128x4096_S128x4096) bitsLt_bf16_f32)
            shapeCasts_S128x4096_S128x32x128)
          (broadcastTo S128x32x128
            (shapeCast S128x32x1 (shapeCast S128x32 x2 shapeCasts_S128x32_S128x32) shapeCasts_S128x32_S128x32x1)
            broadcasts_S128x32x1_S128x32x128))
        shapeCasts_S128x32x128_S128x4096 (ix2 q k)
      = x1 (ix2 q k) * x2 (ix2 q (Cert.Spec.tileCol k)) := by
  have hq : q.val < 128 := q.isLt
  have hk : k.val < 4096 := k.isLt
  refine (shapeCast_apply _ _ (ix2 q k) (ix3 q (Cert.Spec.tileCol k) (inTile k)) (by
    rw [Shape.rowMajor_val_three, Shape.rowMajor_val_two]
    show (q.val * 32 + k.val / 128) * 128 + k.val % 128 = q.val * 4096 + k.val
    omega)).trans ?_
  show shapeCast S128x32x128 (extf .f32 (shapeCast S128x4096 x1 shapeCasts_S128x4096_S128x4096) bitsLt_bf16_f32)
        shapeCasts_S128x4096_S128x32x128 (ix3 q (Cert.Spec.tileCol k) (inTile k))
      * broadcastTo S128x32x128
          (shapeCast S128x32x1 (shapeCast S128x32 x2 shapeCasts_S128x32_S128x32) shapeCasts_S128x32_S128x32x1)
          broadcasts_S128x32x1_S128x32x128 (ix3 q (Cert.Spec.tileCol k) (inTile k)) = _
  have hw : shapeCast S128x32x128 (extf .f32 (shapeCast S128x4096 x1 shapeCasts_S128x4096_S128x4096) bitsLt_bf16_f32)
        shapeCasts_S128x4096_S128x32x128 (ix3 q (Cert.Spec.tileCol k) (inTile k)) = x1 (ix2 q k) := by
    refine (shapeCast_apply _ _ (ix3 q (Cert.Spec.tileCol k) (inTile k)) (ix2 q k) (by
      rw [Shape.rowMajor_val_three, Shape.rowMajor_val_two]
      show q.val * 4096 + k.val = (q.val * 32 + k.val / 128) * 128 + k.val % 128
      omega)).trans ?_
    show shapeCast S128x4096 x1 shapeCasts_S128x4096_S128x4096 (ix2 q k) = x1 (ix2 q k)
    rw [shapeCast_self]
  have hs : broadcastTo S128x32x128
          (shapeCast S128x32x1 (shapeCast S128x32 x2 shapeCasts_S128x32_S128x32) shapeCasts_S128x32_S128x32x1)
          broadcasts_S128x32x1_S128x32x128 (ix3 q (Cert.Spec.tileCol k) (inTile k)) = x2 (ix2 q (Cert.Spec.tileCol k)) := by
    refine (broadcastTo_apply _ _ (ix3 q (Cert.Spec.tileCol k) (inTile k)) (ix3 q (Cert.Spec.tileCol k) (⟨0, Nat.one_pos⟩ : Fin 1))
      (fun a => by
        match a with
        | ⟨0, _⟩ => rfl
        | ⟨1, _⟩ => rfl
        | ⟨2, _⟩ => rfl)).trans ?_
    refine (shapeCast_apply _ _ (ix3 q (Cert.Spec.tileCol k) (⟨0, Nat.one_pos⟩ : Fin 1)) (ix2 q (Cert.Spec.tileCol k)) (by
      rw [Shape.rowMajor_val_three, Shape.rowMajor_val_two]
      show q.val * 32 + k.val / 128 = (q.val * 32 + k.val / 128) * 1 + 0
      omega)).trans ?_
    rw [shapeCast_self]
  rw [hw, hs]

/-! ## The body's result at an entry -/

/-- Entry (p, q) of what the body stores: the inner product over the features of input row `p` with dequantized
    weight row `q`. -/
theorem pay_apply (x0 : Vec Ideal S2048x4096 .bf16) (x1 : Vec Ideal S128x4096 .bf16) (x2 : Vec Ideal S128x32 .f32)
    (p : Fin 2048) (q : Fin 128) :
    k0_pay1 (F := Ideal) x0 x1 x2 (ix2 p q)
      = ∑ k : Fin 4096, x0 (ix2 p k) * (x1 (ix2 q k) * x2 (ix2 q (Cert.Spec.tileCol k))) := by
  unfold k0_pay1
  refine (Ideal.matmul_constant_zero_apply _ none _ _ _).trans ?_
  rw [← Equiv.sum_comp (contrEquiv1 dot_S2048x4096_S4096x128_S2048x128_1_0_0_1_n_n 4096 rfl rfl).symm]
  refine Finset.sum_congr rfl fun k _ => ?_
  have hk := contrEquiv1_symm_val dot_S2048x4096_S4096x128_S2048x128_1_0_0_1_n_n 4096 rfl rfl k
  have el : dot_S2048x4096_S4096x128_S2048x128_1_0_0_1_n_n.lhsIdx (ix2 p q) ((contrEquiv1 dot_S2048x4096_S4096x128_S2048x128_1_0_0_1_n_n 4096 rfl rfl).symm k) = ix2 p k := funext fun a => Fin.ext (by
    match a with
    | ⟨0, _⟩ => exact lhs_row _ _
    | ⟨1, _⟩ => exact (lhs_col _ _).trans hk)
  have er : dot_S2048x4096_S4096x128_S2048x128_1_0_0_1_n_n.rhsIdx (ix2 p q) ((contrEquiv1 dot_S2048x4096_S4096x128_S2048x128_1_0_0_1_n_n 4096 rfl rfl).symm k) = ix2 k q := funext fun a => Fin.ext (by
    match a with
    | ⟨0, _⟩ => exact (rhs_row _ _).trans hk
    | ⟨1, _⟩ => exact rhs_col _ _)
  rw [el, er, shapeCast_self]
  refine congrArg (x0 (ix2 p k) * ·) ?_
  refine (transpose_apply _ _ _ (ix2 k q) (ix2 q k) (fun b => by
    match b with
    | ⟨0, _⟩ => rfl
    | ⟨1, _⟩ => rfl)).trans ?_
  exact scaled_apply x1 x2 q k

end Cert.KernelIdeal.BlockValue

end
-- ==== Proof.ArrayValue.lean ====
/-
  The kernel's result array is the specified layer of its three arguments.

  The program first views the input as [8192, 4096] rows (row `b * 2048 + t`), and expands the scale to one row per
  weight row: row `o` of the expanded scale is row `o / 128` of the scale. Then a grid of 4 by 86 points runs the
  body; point (i, j) reads input rows [2048 i, 2048 i + 2048), weight rows and expanded-scale rows
  [128 j, 128 j + 128), and writes the [2048, 128] block (i, j) of an [8192, 11008] array. Every entry of that array
  lies in exactly the block of point (row / 2048, column / 128), and what any point writes is the restriction to its
  block of ONE function `G` of the three arrays — entry (r, o) is the sum over the features `k` of
  `X[r, k] * (W[o, k] * S[o, k / 128])` — so the array ends holding `G`. Last the array is viewed as
  [4, 2048, 11008]: entry (b, t, o) is entry (b * 2048 + t, o) of `G`, which is the specified inner product.
-/
import proofs.«176522_j12489764897587_1_alg».proof.Proof.Gen.KernelIdeal.Frame
import proofs.«176522_j12489764897587_1_alg».proof.Proof.BlockValue
import proofs.«176522_j12489764897587_1_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.ArrayValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## One function of the three arrays the grid reads -/

/-- Entry (r, o): the inner product over the features of row `r` of `X` with row `o` of `W`, each weight entry times
    the expanded scale of its row and tile column. -/
def G (X : S8192x4096.Idx → EReal) (W : S11008x4096.Idx → EReal) (S : S11008x32.Idx → EReal) : S8192x11008.Idx → EReal :=
  fun i => ∑ k : Fin 4096, X (ix2 (i 0) k) * (W (ix2 (i 1) k) * S (ix2 (i 1) (Cert.Spec.tileCol k)))

/-- A body result at block entry `j` is `G` at array entry `i` when the three blocks hold the arrays' rows that `i` names. -/
theorem block_eq (X : S8192x4096.Idx → EReal) (W : S11008x4096.Idx → EReal) (S : S11008x32.Idx → EReal)
    (x0 : Vec Ideal S2048x4096 .bf16) (x1 : Vec Ideal S128x4096 .bf16) (x2 : Vec Ideal S128x32 .f32)
    (j : S2048x128.Idx) (i : S8192x11008.Idx)
    (h0 : ∀ k : Fin 4096, x0 (ix2 (n0 := 2048) (j 0) k) = X (ix2 (i 0) k))
    (h1 : ∀ k : Fin 4096, x1 (ix2 (n0 := 128) (j 1) k) = W (ix2 (i 1) k))
    (h2 : ∀ cc : Fin 32, x2 (ix2 (n0 := 128) (j 1) cc) = S (ix2 (i 1) cc)) :
    k0_pay1 (F := Ideal) x0 x1 x2 j = G X W S i := by
  obtain ⟨p, q, rfl⟩ : ∃ (p : Fin 2048) (q : Fin 128), j = ix2 p q := ⟨j 0, j 1, eq_ix2 j⟩
  have h0' : ∀ k : Fin 4096, x0 (ix2 p k) = X (ix2 (i 0) k) := h0
  have h1' : ∀ k : Fin 4096, x1 (ix2 q k) = W (ix2 (i 1) k) := h1
  have h2' : ∀ cc : Fin 32, x2 (ix2 q cc) = S (ix2 (i 1) cc) := h2
  rw [Cert.KernelIdeal.BlockValue.pay_apply]
  unfold G
  refine Finset.sum_congr rfl fun k _ => ?_
  rw [h0' k, h1' k, h2' (Cert.Spec.tileCol k)]

/-! ## The grid's index maps -/

theorem hz : (![0, 0] : Fin 2 → Nat) = fun _ => 0 := funext fun a => by fin_cases a <;> rfl

/-- Decided over the 344 points: the input block's row index is the output block's, the weight block's and the scale
    block's row index is the output block's column index, the three input windows span their arrays' columns, and the
    output block of point `t` is (t / 86, t % 86). -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (1 : Fin 2)
    ∧ win0_2.index t (1 : Fin 2) = 0
    ∧ win0_3.index t (0 : Fin 2) = t.val / 86 ∧ win0_3.index t (1 : Fin 2) = t.val % 86 :=
  (by decide +kernel : ∀ t : Fin grid0.N, _)

/-! ## What a point writes back -/

/-- Point `t` writes back block `t` of `G` of the arrays as the grid finds them. -/
theorem flushed_eq (c : Dev nD) (t : Fin cfg0.N) :
    (dats m 0 c).flushed 3 t = ((cfg0.win 3).blk t).view.read (Elt Ideal) (G (V m c main_v1) (V m c main_v2) (V m c main_v4)) := by
  show (cfg0.win 3).cut (grid0.coords t) ((dats m 0 c).after 3 t) = _
  rw [after0_3]
  unfold out0_3
  rw [View.canon_unit_zero hz]
  simp only [View.ld_unit_zero (S := S2048x4096) hz, View.ld_unit_zero (S := S128x4096) hz, View.ld_unit_zero (S := S128x32) hz]
  obtain ⟨e0, e1, e2, e3, e4, e5, e6, e7⟩ := idx_facts t
  funext j
  show k0_pay1 (F := Ideal) (iblk m c 0 t) (iblk m c 1 t) (iblk m c 2 t) j
    = G (V m c main_v1) (V m c main_v2) (V m c main_v4) (((cfg0.win 3).blk t).view.emb j)
  refine block_eq (V m c main_v1) (V m c main_v2) (V m c main_v4) (iblk m c 0 t) (iblk m c 1 t) (iblk m c 2 t) j
    (((cfg0.win 3).blk t).view.emb j) ?_ ?_ ?_
  · intro k
    show V m c main_v1 (((cfg0.win 0).blk t).view.emb (ix2 (n0 := 2048) (j 0) k)) = V m c main_v1 (ix2 ((((cfg0.win 3).blk t).view.emb j) 0) k)
    refine congrArg (V m c main_v1) (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 4096 + 1 * k.val = k.val; omega
  · intro k
    show V m c main_v2 (((cfg0.win 1).blk t).view.emb (ix2 (n0 := 128) (j 1) k)) = V m c main_v2 (ix2 ((((cfg0.win 3).blk t).view.emb j) 1) k)
    refine congrArg (V m c main_v2) (funext fun a => Fin.ext ?_)
    match a with
    | ⟨0, _⟩ => show win0_1.index t (0 : Fin 2) * 128 + 1 * (j 1).val = win0_3.index t (1 : Fin 2) * 128 + 1 * (j 1).val; omega
    | ⟨1, _⟩ => show win0_1.index t (1 : Fin 2) * 4096 + 1 * k.val = k.val; omega
  · intro cc
    show V m c main_v4 (((cfg0.win 2).blk t).view.emb (ix2 (n0 := 128) (j 1) cc)) = V m c main_v4 (ix2 ((((cfg0.win 3).blk t).view.emb j) 1) cc)
    refine congrArg (V m c main_v4) (funext fun a => Fin.ext ?_)
    match a with
    | ⟨0, _⟩ => show win0_2.index t (0 : Fin 2) * 128 + 1 * (j 1).val = win0_3.index t (1 : Fin 2) * 128 + 1 * (j 1).val; omega
    | ⟨1, _⟩ => show win0_2.index t (1 : Fin 2) * 32 + 1 * cc.val = cc.val; omega

/-! ## The blocks cover the array -/

/-- An entry is in point `t`'s block iff each coordinate is in the block's range on its axis. -/
theorem mem_blk (t : Fin cfg0.N) (i : S8192x11008.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v5).slice (win0_3.rect t)).set ↔ _
  rw [View.set_slice_whole, Rect.mem_set_unit]
  exact Iff.rfl

/-- Entry (r, o) lies in the block of point (r / 2048) * 86 + o / 128, and every point writes its block back. -/
theorem cover (i : S8192x11008.Idx) : ∃ t : Fin cfg0.N, (cfg0.win 3).flush t = true ∧ i ∈ ((cfg0.win 3).blk t).view.set := by
  have hi0 : (i 0).val < 8192 := (i 0).isLt
  have hi1 : (i 1).val < 11008 := (i 1).isLt
  have hN : cfg0.N = 344 := N_0
  let t : Fin cfg0.N := ⟨(i 0).val / 2048 * 86 + (i 1).val / 128, by rw [hN]; omega⟩
  obtain ⟨-, -, -, -, -, -, e6, e7⟩ := idx_facts t
  have q0 : win0_3.index t (0 : Fin 2) = ((i 0).val / 2048 * 86 + (i 1).val / 128) / 86 := e6
  have q1 : win0_3.index t (1 : Fin 2) = ((i 0).val / 2048 * 86 + (i 1).val / 128) % 86 := e7
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- The output array after the grid is `G` of the arrays the grid read. -/
theorem final (c : Dev nD) : (dats m 0 c).arrAt 3 cfg0.N = G (V m c main_v1) (V m c main_v2) (V m c main_v4) :=
  (dats m 0 c).arrAt_eq_of_cover 3 _ (fun t _ => flushed_eq m c t) cover

/-! ## The arrays the grid reads, from the arguments -/

/-- The input viewed as rows (a change of float format is the identity here). -/
theorem rows_eq (c : Dev nD) : (V m c main_v1 : FVec Ideal S8192x4096 .bf16) = truncf (F := Ideal) .bf16 (shapeCast S8192x4096 (m ((c : Thread nD τ).loc main_arg0) : FVec Ideal S4x2048x4096 .f32) shapeCasts_S4x2048x4096_S8192x4096) bitsLt_bf16_f32 := by
  show StableHlo.after hostOps0 (fun b => m (c, b)) (Proc.devRef .tc main_v1) = _
  after_results <;> rfl

/-- The weight as stored. -/
theorem weight_eq (c : Dev nD) : (V m c main_v2 : FVec Ideal S11008x4096 .bf16) = truncf (F := Ideal) .bf16 (m ((c : Thread nD τ).loc main_arg1) : FVec Ideal S11008x4096 .f32) bitsLt_bf16_f32 := by
  show StableHlo.after hostOps0 (fun b => m (c, b)) (Proc.devRef .tc main_v2) = _
  after_results <;> rfl

/-- The scale with each row repeated 128 times. -/
theorem scale_eq (c : Dev nD) : V m c main_v4 = shapeCast S11008x32 (broadcastInDim S86x128x32 ![0, 2] bcast_S86x32_S86x128x32_0_2 (m ((c : Thread nD τ).loc main_arg2))) shapeCasts_S86x128x32_S11008x32 := by
  show StableHlo.after hostOps0 (fun b => m (c, b)) (Proc.devRef .tc main_v4) = _
  after_results <;> rfl

/-- Row `b * 2048 + t` of the row view is row (b, t) of the input. -/
theorem rows_apply (x : FVec Ideal S4x2048x4096 .f32) (b : Fin 4) (t : Fin 2048) (k : Fin 4096) (r : Fin 8192) (hr : r.val = b.val * 2048 + t.val) :
    truncf (F := Ideal) .bf16 (shapeCast S8192x4096 x shapeCasts_S4x2048x4096_S8192x4096) bitsLt_bf16_f32 (ix2 r k) = x (ix3 b t k) := by
  show shapeCast S8192x4096 x shapeCasts_S4x2048x4096_S8192x4096 (ix2 r k) = x (ix3 b t k)
  refine shapeCast_apply _ _ (ix2 r k) (ix3 b t k) ?_
  rw [Shape.rowMajor_val_three, Shape.rowMajor_val_two]
  show (b.val * 2048 + t.val) * 4096 + k.val = r.val * 4096 + k.val
  omega

/-- Row `o` of the expanded scale is row `o / 128` of the scale. -/
theorem scale_apply (s : S86x32.Idx → EReal) (o : Fin 11008) (cc : Fin 32) :
    shapeCast S11008x32 (broadcastInDim S86x128x32 ![0, 2] bcast_S86x32_S86x128x32_0_2 s) shapeCasts_S86x128x32_S11008x32 (ix2 o cc)
      = s (ix2 (Cert.Spec.tileRow o) cc) := by
  have ho : o.val < 11008 := o.isLt
  have hc : cc.val < 32 := cc.isLt
  refine (shapeCast_apply _ _ (ix2 o cc) (ix3 (Cert.Spec.tileRow o) (⟨o.val % 128, Nat.mod_lt _ (by decide)⟩ : Fin 128) cc) (by
    rw [Shape.rowMajor_val_three, Shape.rowMajor_val_two]
    show (o.val / 128 * 128 + o.val % 128) * 32 + cc.val = o.val * 32 + cc.val
    omega)).trans ?_
  refine broadcastInDim_apply _ _ s _ (ix2 (Cert.Spec.tileRow o) cc) (fun a => by
    match a with
    | ⟨0, _⟩ => rfl
    | ⟨1, _⟩ => rfl)

/-! ## The result -/

/-- The program's last line views the grid's output array as [4, 2048, 11008]. -/
theorem tail_eq (c : Dev nD) : Pipeline.afterTail₀ cfgs (dats m) 0 (V0 m) [hostOps1] c main_v6 = shapeCast S4x2048x11008 ((dats m 0 c).arrAt 3 cfg0.N) shapeCasts_S8192x11008_S4x2048x11008 := by
  unfold Pipeline.afterTail₀
  show StableHlo.after hostOps1 _ (Proc.devRef .tc main_v6) = _
  after_results
  exact congrArg (fun v => shapeCast S4x2048x11008 v shapeCasts_S8192x11008_S4x2048x11008) (Pipeline.withArrays_arr spec0 launch0.win.arr_inj c _ _ 3)

/-- `G` at entry (r, o), spelt out. -/
theorem G_apply (X : S8192x4096.Idx → EReal) (W : S11008x4096.Idx → EReal) (S : S11008x32.Idx → EReal) (r : Fin 8192) (o : Fin 11008) :
    G X W S (ix2 r o) = ∑ k : Fin 4096, X (ix2 r k) * (W (ix2 o k) * S (ix2 o (Cert.Spec.tileCol k))) := rfl

/-- The result buffer holds the specified layer of the three arguments. -/
theorem result_eq (c : Dev nD) : Pipeline.afterTail₀ cfgs (dats m) 0 (V0 m) [hostOps1] c main_v6
    = Cert.Spec.linear (m ((c : Thread nD τ).loc main_arg0)) (m ((c : Thread nD τ).loc main_arg1)) (m ((c : Thread nD τ).loc main_arg2)) := by
  rw [tail_eq, final, rows_eq, weight_eq, scale_eq]
  funext i
  obtain ⟨b, t, o, rfl⟩ : ∃ (b : Fin 4) (t : Fin 2048) (o : Fin 11008), i = ix3 b t o := ⟨i 0, i 1, i 2, eq_ix3 i⟩
  have hb : b.val < 4 := b.isLt
  have ht : t.val < 2048 := t.isLt
  refine (shapeCast_apply _ _ (ix3 b t o) (ix2 (⟨b.val * 2048 + t.val, by omega⟩ : Fin 8192) o) (by
    rw [Shape.rowMajor_val_three, Shape.rowMajor_val_two]
    rfl)).trans ?_
  rw [G_apply]
  show _ = Cert.Spec.linearAt _ _ _ b t o
  unfold Cert.Spec.linearAt Cert.Spec.dequant
  refine Finset.sum_congr rfl fun k _ => ?_
  rw [rows_apply _ b t k _ rfl, scale_apply]
  rfl

/-- Every weakly fair execution of the program terminates with the result buffer at the specified layer of the
    arguments and the arguments unchanged. -/
theorem run : θ_run defs (onTc (τ := τ) (main (F := Ideal))) ⟨m, fun _ => 0, ρ⟩ fun r => ∀ c : Dev nD,
      r.2.mem ((c.tc : Thread nD τ).loc main_v6) = Cert.Spec.linear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ArrayValue

end
-- ==== Proof.lean ====
/-
  A linear layer with a tile-wise dequantized weight: the kernel against its reference, over the extended reals.

  Both programs compute, at batch `b`, position `t` and output feature `o`, the inner product over the 4096 input
  features `k` of `x[b, t, k]` with `weight[o, k] * scale[o / 128, k / 128]` (the specification, `Cert.Spec.linear`).
  The reference multiplies the weight, viewed as 86 by 32 tiles of 128 by 128 entries, by the scale broadcast over each
  tile, and contracts the input's feature axis with the product's column axis. The kernel views the input as 8192 rows,
  repeats each scale row 128 times, and on a grid of 4 by 86 points multiplies a block of 128 weight rows by their
  scales, 128 columns at a time, and contracts it with a block of 2048 input rows; the 344 blocks written tile the
  [8192, 11008] result, which is last viewed as [4, 2048, 11008]. No law beyond reading both sides at an index is
  needed: the two sums run over the same features and have the same terms, each a product of the same three numbers
  grouped the same way; a change of float format is the identity on the extended reals. The inputs' finiteness is
  not used. The idealization rewrote nothing, so that the kernel's idealized text is its own text read over the
  extended reals.
-/
import proofs.«176522_j12489764897587_1_alg».proof.Defs
import proofs.«176522_j12489764897587_1_alg».proof.Proof.Gen.Kernel
import proofs.«176522_j12489764897587_1_alg».proof.Proof.Gen.Kernel.Skeleton
import proofs.«176522_j12489764897587_1_alg».proof.Proof.Gen.Kernel.Launch
import proofs.«176522_j12489764897587_1_alg».proof.Proof.Gen.Kernel.Points
import proofs.«176522_j12489764897587_1_alg».proof.Proof.Gen.Kernel.Frame
import proofs.«176522_j12489764897587_1_alg».proof.Proof.Gen.KernelIdeal
import proofs.«176522_j12489764897587_1_alg».proof.Proof.Gen.KernelIdeal.Skeleton
import proofs.«176522_j12489764897587_1_alg».proof.Proof.Gen.KernelIdeal.Launch
import proofs.«176522_j12489764897587_1_alg».proof.Proof.Gen.KernelIdeal.Points
import proofs.«176522_j12489764897587_1_alg».proof.Proof.Gen.KernelIdeal.Frame
import proofs.«176522_j12489764897587_1_alg».proof.Proof.Gen.ReferenceIdeal
import proofs.«176522_j12489764897587_1_alg».proof.Proof.Gen.ReferenceIdeal.Run
import proofs.«176522_j12489764897587_1_alg».proof.Proof.Gen.ReferenceIdeal.Read
import proofs.«176522_j12489764897587_1_alg».proof.Proof.Gen.Pre_finite_inputs
import proofs.«176522_j12489764897587_1_alg».proof.Proof.Spec
import proofs.«176522_j12489764897587_1_alg».proof.Proof.RefValue
import proofs.«176522_j12489764897587_1_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its text read over the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories that agree on the three arguments, the kernel's result buffer ends at the specified layer of its
    arguments, and the reference's at the specified layer of its own, which are the same arrays. -/
theorem algebraic : Cert.algebraic_KernelIdeal_ReferenceIdeal := by
  intro m ρ m' ρ' _ hagree
  refine ⟨fun c => Cert.Spec.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
